-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x512 .f32) (main_arg1 : FVec F S8x64x512 .f32) (main_arg2 : FVec F S1024x512 .f32) (main_arg3 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S512x1024 : Shape := ⟨2, ![512, 1024]⟩
abbrev S8x256x64x1024 : Shape := ⟨4, ![8, 256, 64, 1024]⟩
abbrev S1x32x512 : Shape := ⟨3, ![1, 32, 512]⟩
abbrev S1x64x512 : Shape := ⟨3, ![1, 64, 512]⟩
abbrev S1x32x64x1024 : Shape := ⟨4, ![1, 32, 64, 1024]⟩
abbrev S32x512 : Shape := ⟨2, ![32, 512]⟩
abbrev S64x512 : Shape := ⟨2, ![64, 512]⟩
abbrev S32x1x512 : Shape := ⟨3, ![32, 1, 512]⟩
abbrev S32x64x512 : Shape := ⟨3, ![32, 64, 512]⟩
abbrev S2048x512 : Shape := ⟨2, ![2048, 512]⟩
abbrev S2048x1024 : Shape := ⟨2, ![2048, 1024]⟩
abbrev S1x1024 : Shape := ⟨2, ![1, 1024]⟩
abbrev S32x64x1024 : Shape := ⟨3, ![32, 64, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S512x1024, .f32⟩
  | .hbm, ⟨5, _⟩ => ⟨S512x1024, .bf16⟩
  | .hbm, ⟨6, _⟩ => ⟨S8x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S512x1024, .bf16⟩
  | .local _ .vmem, ⟨5, _⟩ => ⟨S1024, .f32⟩
  | .local _ .vmem, ⟨6, _⟩ => ⟨S1x32x64x1024, .f32⟩
  | .local _ .vmem, ⟨7, _⟩ => ⟨S1x32x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  bitsLt_bf16_f32 : FTy.bits .bf16 < FTy.bits .f32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S2048x1024_S32x64x1024 : S2048x1024.ShapeCasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x256x512.size a
  hwx0_0 : ∀ i : grid0.Coords, EltTy.bits .f32 = 32 ∨ (Rect.block (s := S8x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64x1024.size a ≤ S8x256x64x1024.size a
  hwx0_4 : ∀ i : grid0.Coords, EltTy.bits .f32 = 32 ∨ (Rect.block (s := S8x256x64x1024) S1x32x64x1024.size (cc0_transform_4 i) (hinb0_4 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S8x256x1x512 : Shape := ⟨4, ![8, 256, 1, 512]⟩
abbrev S_ : Shape := ⟨0, ![]⟩
abbrev S8x1x64x512 : Shape := ⟨4, ![8, 1, 64, 512]⟩
abbrev S8x256x64x512 : Shape := ⟨4, ![8, 256, 64, 512]⟩
abbrev S8x256x64x1024 : Shape := ⟨4, ![8, 256, 64, 1024]⟩
abbrev S1x1x1x1024 : Shape := ⟨4, ![1, 1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S8x256x1x512, .f32⟩
  | .hbm, ⟨5, _⟩ => ⟨S_, .f32⟩
  | .hbm, ⟨6, _⟩ => ⟨S8x256x1x512, .f32⟩
  | .hbm, ⟨7, _⟩ => ⟨S8x256x1x512, .f32⟩
  | .hbm, ⟨8, _⟩ => ⟨S8x1x64x512, .f32⟩
  | .hbm, ⟨9, _⟩ => ⟨S_, .f32⟩
  | .hbm, ⟨10, _⟩ => ⟨S8x1x64x512, .f32⟩
  | .hbm, ⟨11, _⟩ => ⟨S8x1x64x512, .f32⟩
  | .hbm, ⟨12, _⟩ => ⟨S8x256x64x512, .f32⟩
  | .hbm, ⟨13, _⟩ => ⟨S8x256x64x512, .f32⟩
  | .hbm, ⟨14, _⟩ => ⟨S8x256x64x512, .f32⟩
  | .hbm, ⟨15, _⟩ => ⟨S_, .f32⟩
  | .hbm, ⟨16, _⟩ => ⟨S8x256x64x512, .f32⟩
  | .hbm, ⟨17, _⟩ => ⟨S8x256x64x512, .f32⟩
  | .hbm, ⟨18, _⟩ => ⟨S8x256x64x1024, .f32⟩
  | .hbm, ⟨19, _⟩ => ⟨S1x1x1x1024, .f32⟩
  | .hbm, ⟨20, _⟩ => ⟨S8x256x64x1024, .f32⟩
  | .hbm, ⟨21, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S_S8x256x1x512 : S_.BroadcastsInDim S8x256x1x512 (![] : Fin 0 → Fin S8x256x1x512.rank)
  bcast_S8x64x512_S8x1x64x512_0_2_3 : S8x64x512.BroadcastsInDim S8x1x64x512 (![0, 2, 3] : Fin 3 → Fin S8x1x64x512.rank)
  bcast_S_S8x1x64x512 : S_.BroadcastsInDim S8x1x64x512 (![] : Fin 0 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S_S8x256x64x512 : S_.BroadcastsInDim S8x256x64x512 (![] : Fin 0 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x512_S1024x512_S8x256x64x1024_3_1_012_0_n_n_wf : DotDims.WF S8x256x64x512 S1024x512 S8x256x64x1024 [3] [1] [0, 1, 2] [0] [] []

variable [Facts₀]

def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Joint.lean ====
/-
  The joint network's logits as ONE function of its four arrays, on the extended reals.

  `x : [8, 256, 512]` holds one 512-vector per (batch, frame), `y : [8, 64, 512]` one per (batch, label position),
  `W : [1024, 512]` one row per output class and `bias : [1024]` one number per class. For batch `b`, frame `t`,
  label position `u` and class `v`

      hidden[b, t, u, k] = max (1 · x[b, t, k] + 1 · y[b, u, k]) 0
      logits[b, t, u, v] = (Σ_k hidden[b, t, u, k] · W[v, k]) + bias[v]        (k over the 512 features).

  The two unit weights and the rectifier's floor stay the float words both programs print (`0x3F800000`, `0x00000000`):
  they occur in the same places on both sides, so nothing below ever evaluates them. No law of the extended reals is
  used beyond reading each side at an index: the two programs add the same 512 products in the same order.
-/
import Idealize.ShloMosaic.PureOps.Ideal
import Idealize.ShloMosaic.Lib.ValueIdx

noncomputable section

open scoped BigOperators

namespace Cert.Joint

open Idealize.ShloMosaic Idealize.ShloMosaic.ValueIdx

/-- The weight both encoders' outputs are scaled by: the word of the float `1.0`. -/
abbrev unit : EReal := Ideal.ofBits .f32 0x3F800000#32

/-- The rectifier's floor: the word of the float `0.0`. -/
abbrev floor : EReal := Ideal.ofBits .f32 0x00000000#32

/-- Feature `k` of the rectified sum of frame `t`'s and label position `u`'s vectors, in batch `b`. -/
def hidden (x : (⟨3, ![8, 256, 512]⟩ : Shape).Idx → EReal) (y : (⟨3, ![8, 64, 512]⟩ : Shape).Idx → EReal)
    (b : Fin 8) (t : Fin 256) (u : Fin 64) (k : Fin 512) : EReal :=
  max (unit * x (ix3 b t k) + unit * y (ix3 b u k)) floor

/-- The logits: the hidden vector against each class's row of `W`, plus the class's bias. -/
def logits (x : (⟨3, ![8, 256, 512]⟩ : Shape).Idx → EReal) (y : (⟨3, ![8, 64, 512]⟩ : Shape).Idx → EReal)
    (W : (⟨2, ![1024, 512]⟩ : Shape).Idx → EReal) (bias : (⟨1, ![1024]⟩ : Shape).Idx → EReal) :
    (⟨4, ![8, 256, 64, 1024]⟩ : Shape).Idx → EReal :=
  fun i => (∑ k : Fin 512, hidden x y (i 0) (i 1) (i 2) k * W (ix2 (i 3) k)) + bias (ix1 (i 3))

end Cert.Joint

end
-- ==== Proof.BodyValue.lean ====
/-
  What one grid step of the kernel stores, read at an index.

  A step holds 32 frames of one batch entry (`xb : [1, 32, 512]`), that entry's 64 label vectors (`yb : [1, 64, 512]`),
  the whole weight matrix laid out features × classes (`wt : [512, 1024]`) and the bias (`bs : [1024]`). It forms the
  rectified sums for all 32 · 64 (frame, label) pairs, lists the pairs as the rows of a [2048, 512] matrix — pair
  `(r, s)` is row `64 r + s` —, multiplies by `wt` into a zero accumulator, adds the bias to every row and stores the
  [2048, 1024] product as a [1, 32, 64, 1024] block. Read at `(0, r, s, v)` the stored value is therefore

      (Σ_k max (1 · xb[0, r, k] + 1 · yb[0, s, k]) 0 · wt[k, v]) + bs[v].

  The narrowing of the hidden values and of the weights to bf16 is the identity on the extended reals.
-/
import proofs.«148774_j4844723109998_1_alg».proof.Proof.Gen.KernelIdeal.Skeleton
import proofs.«148774_j4844723109998_1_alg».proof.Proof.LibContraction
import proofs.«148774_j4844723109998_1_alg».proof.Proof.Joint
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

variable {α : Type}

/-- The row of the [2048, ·] matrices that the pair (frame `r`, label position `s`) of a step occupies. -/
abbrev pairRow (r : Fin 32) (s : Fin 64) : Fin 2048 := ⟨r.val * 64 + s.val, by have := r.isLt; have := s.isLt; omega⟩

/-! ## The re-layings, each read at coordinates -/

/-- The [2048, 1024] product viewed [32, 64, 1024]: entry `(r, s, v)` is row `64 r + s`, column `v`. -/
theorem unflatten_apply (z : S2048x1024.Idx → α) (h : S2048x1024.ShapeCasts S32x64x1024) (r : Fin 32) (s : Fin 64) (v : Fin 1024) :
    shapeCast S32x64x1024 z h (ix3 r s v) = z (ix2 (pairRow r s) v) :=
  shapeCast_apply z h _ _ (by
    rw [Shape.rowMajor_val_two, Shape.rowMajor_val_three]
    show (r.val * 64 + s.val) * 1024 + v.val = (r.val * 64 + s.val) * 1024 + v.val
    rfl)

/-- The [32, 64, 512] hidden values listed pair by pair: row `64 r + s`, feature `k` is entry `(r, s, k)`. -/
theorem flatten_apply (z : S32x64x512.Idx → α) (h : S32x64x512.ShapeCasts S2048x512) (r : Fin 32) (s : Fin 64) (k : Fin 512) :
    shapeCast S2048x512 z h (ix2 (pairRow r s) k) = z (ix3 r s k) :=
  shapeCast_apply z h _ _ (by
    rw [Shape.rowMajor_val_two, Shape.rowMajor_val_three]
    show (r.val * 64 + s.val) * 512 + k.val = (r.val * 64 + s.val) * 512 + k.val
    rfl)

/-- A frame's vector given a unit label axis: `(r, 0, k)` reads `(r, k)`. -/
theorem frameAxis_apply (z : S32x512.Idx → α) (h : S32x512.ShapeCasts S32x1x512) (r : Fin 32) (u : Fin 1) (k : Fin 512) :
    shapeCast S32x1x512 z h (ix3 r u k) = z (ix2 r k) :=
  shapeCast_apply z h _ _ (by
    have hu : u.val = 0 := by omega
    rw [Shape.rowMajor_val_two, Shape.rowMajor_val_three]
    show r.val * 512 + k.val = (r.val * 1 + u.val) * 512 + k.val
    rw [hu, Nat.mul_one, Nat.add_zero])

/-- The frames' vectors repeated along the label axis: `(r, s, k)` reads `(r, 0, k)`. -/
theorem overLabels_apply (z : S32x1x512.Idx → α) (h : S32x1x512.Broadcasts S32x64x512) (r : Fin 32) (s : Fin 64) (k : Fin 512) :
    broadcastTo S32x64x512 z h (ix3 r s k) = z (ix3 r (0 : Fin 1) k) := by
  refine broadcastTo_apply z h (ix3 r s k) (ix3 r (0 : Fin 1) k) fun ax => ?_
  match ax with
  | ⟨0, _⟩ => rfl
  | ⟨1, _⟩ => rfl
  | ⟨2, _⟩ => rfl

/-- The labels' vectors repeated along the frame axis: `(r, s, k)` reads `(0, s, k)`. -/
theorem overFrames_apply (z : S1x64x512.Idx → α) (h : S1x64x512.Broadcasts S32x64x512) (r : Fin 32) (s : Fin 64) (k : Fin 512) :
    broadcastTo S32x64x512 z h (ix3 r s k) = z (ix3 (0 : Fin 1) s k) := by
  refine broadcastTo_apply z h (ix3 r s k) (ix3 (0 : Fin 1) s k) fun ax => ?_
  match ax with
  | ⟨0, _⟩ => rfl
  | ⟨1, _⟩ => rfl
  | ⟨2, _⟩ => rfl

/-! ## The product -/

/-- The step's matrix product into a zero accumulator, at row `p` and class `v`: the 512 products of row `p` of the
    left matrix with column `v` of the right one, added in the order of the features. -/
theorem product_apply (A : FVec Ideal S2048x512 .bf16) (B : FVec Ideal S512x1024 .bf16) (p : Fin 2048) (v : Fin 1024) :
    matmul dot_S2048x512_S512x1024_S2048x1024_1_0_0_1_n_n none A B (constant S2048x1024 .f32 0x00000000#32) (ix2 p v)
      = ∑ k : Fin 512, A (ix2 p k) * B (ix2 k v) := by
  show FloatOps.matmul dot_S2048x512_S512x1024_S2048x1024_1_0_0_1_n_n none A B (constant S2048x1024 .f32 0x00000000#32) (ix2 p v) = _
  rw [Ideal.matmul_constant_zero_apply,
    Cert.Lib.Contraction.sum_contr dot_S2048x512_S512x1024_S2048x1024_1_0_0_1_n_n (cl := 1) rfl 512 rfl]
  refine Finset.sum_congr rfl fun k _ => ?_
  have el : dot_S2048x512_S512x1024_S2048x1024_1_0_0_1_n_n.lhsIdx (ix2 p v)
      ((Cert.Lib.Contraction.contrFin dot_S2048x512_S512x1024_S2048x1024_1_0_0_1_n_n (cl := 1) rfl 512 rfl).symm k) = ix2 p k :=
    funext fun a => Fin.ext (by
      match a with
      | ⟨0, _⟩ => exact Cert.Lib.Contraction.lhs_free dot_S2048x512_S512x1024_S2048x1024_1_0_0_1_n_n (nl := 0) rfl rfl _ _ (by decide)
      | ⟨1, _⟩ => exact Cert.Lib.Contraction.lhs_contracted dot_S2048x512_S512x1024_S2048x1024_1_0_0_1_n_n (cl := 1) rfl 512 rfl _ k)
  have er : dot_S2048x512_S512x1024_S2048x1024_1_0_0_1_n_n.rhsIdx (ix2 p v)
      ((Cert.Lib.Contraction.contrFin dot_S2048x512_S512x1024_S2048x1024_1_0_0_1_n_n (cl := 1) rfl 512 rfl).symm k) = ix2 k v :=
    funext fun a => Fin.ext (by
      match a with
      | ⟨0, _⟩ => exact Cert.Lib.Contraction.rhs_contracted dot_S2048x512_S512x1024_S2048x1024_1_0_0_1_n_n (cl := 1) (cr := 0) rfl rfl 512 rfl _ k
      | ⟨1, _⟩ => exact Cert.Lib.Contraction.rhs_free dot_S2048x512_S512x1024_S2048x1024_1_0_0_1_n_n (nl := 0) (nr := 1) rfl rfl rfl rfl _ _ (by decide))
  rw [el, er]

/-! ## The stored block -/

/-- THE STEP'S STORE at `(0, r, s, v)`: the rectified sum of frame `r`'s and label `s`'s vectors against column `v` of
    the weights, plus the bias of class `v`. -/
theorem stored_apply (xb : Vec Ideal S1x32x512 .f32) (yb : Vec Ideal S1x64x512 .f32) (wt : Vec Ideal S512x1024 .bf16)
    (bs : Vec Ideal S1024 .f32) (u : Fin 1) (r : Fin 32) (s : Fin 64) (v : Fin 1024) :
    k0_pay1 (F := Ideal) xb yb wt bs (ix4 u r s v)
      = (∑ k : Fin 512, max (Joint.unit * xb (ix3 (0 : Fin 1) r k) + Joint.unit * yb (ix3 (0 : Fin 1) s k)) Joint.floor * wt (ix2 k v))
          + bs (ix1 v) := by
  unfold k0_pay1
  rw [shapeCast_abc_1abc_apply, unflatten_apply, addf_apply, product_apply, broadcastTo_1b_ab_apply, shapeCast_a_1a_apply]
  simp only [shapeCast_self, flatten_apply, truncf_apply, maximumf_apply, addf_apply, overLabels_apply, overFrames_apply,
    mulf_apply, broadcast_apply, frameAxis_apply, shapeCast_1ab_ab_apply, shapeCast_ab_1ab_apply]
  rfl

end Cert.KernelIdeal.Body

end
-- ==== Proof.BlockReads.lean ====
/-
  Each window's block at a grid step, as entries of the argument arrays.

  The grid is 8 × 8: step `(bi, ti)` works on batch entry `bi` and on frames `32 ti … 32 ti + 31`. Its blocks are
    · frames:  `x[bi, 32 ti + r, k]` at `(0, r, k)`;
    · labels:  `y[bi, s, k]` at `(0, s, k)`, whatever `ti`;
    · weights: the whole [512, 1024] matrix the program prepares before the grid — `W` transposed, then narrowed to
      bf16, which is the identity on the extended reals — so entry `(k, v)` is `W[v, k]`;
    · bias:    the whole vector;
  and the output block `(0, r, s, v)` is entry `(bi, 32 ti + r, s, v)` of the result. The relations between the five
  index maps are decided once over the 64 steps.
-/
import proofs.«148774_j4844723109998_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The four argument arrays on core `c`, as launched. -/
abbrev frames (c : Dev nD) : S8x256x512.Idx → EReal := m ((c : Thread nD τ).loc main_arg0)
abbrev labels (c : Dev nD) : S8x64x512.Idx → EReal := m ((c : Thread nD τ).loc main_arg1)
abbrev weights (c : Dev nD) : S1024x512.Idx → EReal := m ((c : Thread nD τ).loc main_arg2)
abbrev biases (c : Dev nD) : S1024.Idx → EReal := m ((c : Thread nD τ).loc main_arg3)

/-- How the five index maps move over the grid: frames and output share the batch and frame-tile coordinates, labels
    share the batch coordinate only, weights and bias never move, and the output's two tile coordinates stay below 8. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 4) ≤ 7 ∧ win0_4.index t (1 : Fin 4) ≤ 7
    ∧ win0_4.index t (2 : Fin 4) = 0 ∧ win0_4.index t (3 : Fin 4) = 0 :=
  (by decide +kernel : ∀ t : Fin grid0.N, _)

/-- Every (batch entry, frame tile) is some step's. -/
theorem idx_onto : ∀ (q0 : Fin 8) (q1 : Fin 8), ∃ t : Fin cfg0.N, win0_4.index t = ![q0.val, q1.val, 0, 0] :=
  (by decide +kernel : ∀ (q0 : Fin 8) (q1 : Fin 8), ∃ t : Fin grid0.N, win0_4.index t = ![q0.val, q1.val, 0, 0])

/-! ## The weights as the grid finds them -/

/-- Before the grid the program transposes `W` and narrows it: the array the weight window stages. -/
theorem weights_found (c : Dev nD) :
    (V m c main_v1 : S512x1024.Idx → EReal)
      = truncf (F := Ideal) .bf16 (transpose S512x1024 [1, 0] (weights m c) transposes_S1024x512_S512x1024_1_0) bitsLt_bf16_f32 := by
  dsimp only [Gen.V, Gen.hostOps0]
  after_results <;> rfl

/-- Its entry `(k, v)` is `W[v, k]`. -/
theorem weights_found_apply (c : Dev nD) (k : Fin 512) (v : Fin 1024) :
    (V m c main_v1 : S512x1024.Idx → EReal) (ix2 k v) = weights m c (ix2 v k) := by
  rw [weights_found, truncf_apply, transpose_ix2_apply]

/-! ## The blocks -/

/-- The frames' block at step `t`: entry `(0, r, k)` is `x[bi, 32 ti + r, k]`. -/
theorem frames_block (c : Dev nD) (t : Fin cfg0.N) (r : Fin 32) (k : Fin 512) (i : S8x256x512.Idx)
    (h0 : (i 0).val = win0_4.index t (0 : Fin 4)) (h1 : (i 1).val = win0_4.index t (1 : Fin 4) * 32 + r.val)
    (h2 : (i 2).val = k.val) :
    (iblk m c 0 t : Vec Ideal S1x32x512 .f32) (ix3 (0 : Fin 1) r k) = frames m c i := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = (i 0).val; omega
  | ⟨1, _⟩ => show win0_0.index t (1 : Fin 3) * 32 + 1 * r.val = (i 1).val; omega
  | ⟨2, _⟩ => show win0_0.index t (2 : Fin 3) * 512 + 1 * k.val = (i 2).val; omega

/-- The labels' block at step `t`: entry `(0, s, k)` is `y[bi, s, k]`. -/
theorem labels_block (c : Dev nD) (t : Fin cfg0.N) (s : Fin 64) (k : Fin 512) (i : S8x64x512.Idx)
    (h0 : (i 0).val = win0_4.index t (0 : Fin 4)) (h1 : (i 1).val = s.val) (h2 : (i 2).val = k.val) :
    (iblk m c 1 t : Vec Ideal S1x64x512 .f32) (ix3 (0 : Fin 1) s k) = labels m c i := by
  obtain ⟨-, -, -, e0, e1, e2, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = (i 0).val; omega
  | ⟨1, _⟩ => show win0_1.index t (1 : Fin 3) * 64 + 1 * s.val = (i 1).val; omega
  | ⟨2, _⟩ => show win0_1.index t (2 : Fin 3) * 512 + 1 * k.val = (i 2).val; omega

/-- The weights' block at any step is the whole prepared matrix: entry `(k, v)` is `W[v, k]`. -/
theorem weights_block (c : Dev nD) (t : Fin cfg0.N) (k : Fin 512) (v : Fin 1024) (i : S1024x512.Idx)
    (h0 : (i 0).val = v.val) (h1 : (i 1).val = k.val) :
    (iblk m c 2 t : Vec Ideal S512x1024 .bf16) (ix2 k v) = weights m c i := by
  obtain ⟨-, -, -, -, -, -, e0, e1, -⟩ := idx_facts t
  unfold iblk
  rw [View.read_apply]
  show (V m c main_v1 : S512x1024.Idx → EReal) _ = _
  have hpos : ((cfg0.win 2).blk t).view.emb (ix2 k v) = ix2 k v := funext fun a => Fin.ext (by
    match a with
    | ⟨0, _⟩ => show win0_2.index t (0 : Fin 2) * 512 + 1 * k.val = k.val; omega
    | ⟨1, _⟩ => show win0_2.index t (1 : Fin 2) * 1024 + 1 * v.val = v.val; omega)
  rw [hpos, weights_found_apply]
  refine congrArg _ (funext fun a => Fin.ext ?_)
  match a with
  | ⟨0, _⟩ => exact h0.symm
  | ⟨1, _⟩ => exact h1.symm

/-- The bias's block at any step is the whole vector. -/
theorem biases_block (c : Dev nD) (t : Fin cfg0.N) (v : Fin 1024) (i : S1024.Idx) (h0 : (i 0).val = v.val) :
    (iblk m c 3 t : Vec Ideal S1024 .f32) (ix1 v) = biases m c i := by
  obtain ⟨-, -, -, -, -, -, -, -, e0, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 1) * 1024 + 1 * v.val = (i 0).val; omega

end Cert.KernelIdeal.Blocks

end
-- ==== Proof.Result.lean ====
/-
  The kernel's result array is the logits of its four arguments.

  What step `t = (bi, ti)` writes back is its block of `Joint.logits`: at `(0, r, s, v)` the step stores the rectified sum
  of its frame `r` and label `s` against column `v` of the prepared weights, plus the bias (the body read at an index), and
  its blocks are `x[bi, 32 ti + r, ·]`, `y[bi, s, ·]`, `W[v, ·]` and the bias (the block reads) — the entry
  `(bi, 32 ti + r, s, v)` of the logits. Row `i₁` of batch entry `i₀` lies in the block of step `(i₀, i₁ / 32)`, so the 64
  blocks cover the array and it ends holding the logits everywhere.
-/
import proofs.«148774_j4844723109998_1_alg».proof.Proof.Gen.KernelIdeal.Value
import proofs.«148774_j4844723109998_1_alg».proof.Proof.BodyValue
import proofs.«148774_j4844723109998_1_alg».proof.Proof.BlockReads

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The logits of core `c`'s argument arrays. -/
abbrev result (c : Dev nD) : S8x256x64x1024.Idx → EReal :=
  Joint.logits (frames m c) (labels m c) (weights m c) (biases m c)

/-- A step's store at block index `j` is the logits at array index `i`, once the step's four blocks are known to be the
    entries of the arguments that `i` reads. -/
theorem stored_eq_logits (x : S8x256x512.Idx → EReal) (y : S8x64x512.Idx → EReal) (W : S1024x512.Idx → EReal)
    (bias : S1024.Idx → EReal) (xb : Vec Ideal S1x32x512 .f32) (yb : Vec Ideal S1x64x512 .f32)
    (wt : Vec Ideal S512x1024 .bf16) (bs : Vec Ideal S1024 .f32) (j : S1x32x64x1024.Idx) (i : S8x256x64x1024.Idx)
    (hx : ∀ k : Fin 512, xb (ix3 (0 : Fin 1) (j 1) k) = x (ix3 (i 0) (i 1) k))
    (hy : ∀ k : Fin 512, yb (ix3 (0 : Fin 1) (j 2) k) = y (ix3 (i 0) (i 2) k))
    (hw : ∀ k : Fin 512, wt (ix2 k (j 3)) = W (ix2 (i 3) k))
    (hb : bs (ix1 (j 3)) = bias (ix1 (i 3))) :
    k0_pay1 (F := Ideal) xb yb wt bs j = Joint.logits x y W bias i := by
  refine ((congrArg (k0_pay1 (F := Ideal) xb yb wt bs) (eq_ix4 j)).trans
    (Body.stored_apply xb yb wt bs (j 0) (j 1) (j 2) (j 3))).trans ?_
  unfold Joint.logits Joint.hidden
  rw [hb]
  refine congrArg (· + bias (ix1 (i 3))) (Finset.sum_congr rfl fun k _ => ?_)
  rw [hx k, hy k, hw k]

/-- WHAT STEP `t` WRITES BACK is block `t` of the logits. -/
theorem flushed_eq (c : Dev nD) (t : Fin cfg0.N) :
    (dats m 0 c).flushed 4 t = ((cfg0.win 4).blk t).view.read (Elt Ideal) (result m c) := by
  obtain ⟨-, -, -, -, -, -, -, -, -, -, -, e2, e3⟩ := idx_facts t
  rw [Value.flushed4]
  unfold out0_4
  rw [View.canon_unit_zero hz4]
  simp only [View.ld_unit_zero (S := S1x32x512) hz3, View.ld_unit_zero (S := S1x64x512) hz3,
    View.ld_unit_zero (S := S512x1024) hz2, View.ld_unit_zero (S := S1024) hz1]
  funext j
  show k0_pay1 (iblk m c 0 t) (iblk m c 1 t) (iblk m c 2 t) (iblk m c 3 t) j = result m c (((cfg0.win 4).blk t).view.emb j)
  have hj0 : (j 0).val < 1 := (j 0).isLt
  refine stored_eq_logits (frames m c) (labels m c) (weights m c) (biases m c) _ _ _ _ j _
    (fun k => ?_) (fun k => ?_) (fun k => ?_) ?_
  · refine frames_block m c t (j 1) k _ ?_ ?_ rfl
    · show win0_4.index t (0 : Fin 4) * 1 + 1 * (j 0).val = win0_4.index t (0 : Fin 4); omega
    · show win0_4.index t (1 : Fin 4) * 32 + 1 * (j 1).val = win0_4.index t (1 : Fin 4) * 32 + (j 1).val; omega
  · refine labels_block m c t (j 2) k _ ?_ ?_ rfl
    · show win0_4.index t (0 : Fin 4) * 1 + 1 * (j 0).val = win0_4.index t (0 : Fin 4); omega
    · show win0_4.index t (2 : Fin 4) * 64 + 1 * (j 2).val = (j 2).val; omega
  · refine weights_block m c t k (j 3) _ ?_ rfl
    show win0_4.index t (3 : Fin 4) * 1024 + 1 * (j 3).val = (j 3).val; omega
  · refine biases_block m c t (j 3) _ ?_
    show win0_4.index t (3 : Fin 4) * 1024 + 1 * (j 3).val = (j 3).val; omega

/-- An index of the result is in step `t`'s block iff each coordinate is in the block's range on its axis. -/
theorem mem_blk (t : Fin cfg0.N) (i : S8x256x64x1024.Idx) :
    i ∈ ((cfg0.win 4).blk t).view.set ↔ ∀ a : Fin 4, win0_4.index t a * S1x32x64x1024.size a ≤ (i a).val
      ∧ (i a).val < win0_4.index t a * S1x32x64x1024.size a + S1x32x64x1024.size a := by
  show i ∈ ((View.whole main_v2).slice (win0_4.rect t)).set ↔ _
  rw [View.set_slice_whole, Rect.mem_set_unit]
  exact Iff.rfl

/-- Every index of the result is in the block of the step for its batch entry and its frame's tile. -/
theorem covered (i : S8x256x64x1024.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 64 ≤ (i 2).val ∧ (i 2).val < win0_4.index t (2 : Fin 4) * 64 + 64; omega
  | ⟨3, _⟩ => show win0_4.index t (3 : Fin 4) * 1024 ≤ (i 3).val ∧ (i 3).val < win0_4.index t (3 : Fin 4) * 1024 + 1024; omega

/-- THE RESULT ARRAY after the run holds the logits. -/
theorem final (c : Dev nD) : (dats m 0 c).arrAt 4 cfg0.N = result m c :=
  (dats m 0 c).arrAt_eq_of_cover 4 (result m c) (fun t _ => flushed_eq m c t) covered

/-- The kernel's run, read: the result array at the logits of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefValue.lean ====
/-
  The reference computes `Joint.logits`.

  Its program scales both encoders' outputs by the unit weight, adds frame `t`'s vector to label position `u`'s for every
  pair, rectifies, contracts the feature axis against `W`'s rows and adds the bias. Read at an index `(b, t, u, v)` one
  operation at a time, the feature-`k` factor of the contraction is `max (1 · x[b, t, k] + 1 · y[b, u, k]) 0` against
  `W[v, k]`: the four index compositions below say which entry of each argument that is.
-/
import proofs.«148774_j4844723109998_1_alg».proof.Proof.Gen.ReferenceIdeal.Read
import proofs.«148774_j4844723109998_1_alg».proof.Proof.Joint

noncomputable section

open scoped BigOperators

namespace Cert.ReferenceIdeal.Spec

open Cert.ReferenceIdeal Cert.ReferenceIdeal.Read Idealize.ShloMosaic Idealize.ShloMosaic.ValueIdx

/-- Feature `k` of the left factor at `(b, t, u, ·)` comes from `x[b, t, k]`: the label axis is the broadcast one. -/
theorem frame_idx (i : S8x256x64x1024.Idx) (k : Fin 512) :
    idx_main_v0 (idx_main_v6 (lidx_main_v10 i k)) = ix3 (i 0) (i 1) k :=
  funext fun a => Fin.ext (by match a with | ⟨0, _⟩ => rfl | ⟨1, _⟩ => rfl | ⟨2, _⟩ => rfl)

/-- … and from `y[b, u, k]`: the frame axis is the broadcast one. -/
theorem label_idx (i : S8x256x64x1024.Idx) (k : Fin 512) :
    idx_main_v3 (idx_main_v7 (lidx_main_v10 i k)) = ix3 (i 0) (i 2) k :=
  funext fun a => Fin.ext (by match a with | ⟨0, _⟩ => rfl | ⟨1, _⟩ => rfl | ⟨2, _⟩ => rfl)

/-- The right factor is `W[v, k]`. -/
theorem weight_idx (i : S8x256x64x1024.Idx) (k : Fin 512) : ridx_main_v10 i k = ix2 (i 3) k :=
  funext fun a => Fin.ext (by match a with | ⟨0, _⟩ => rfl | ⟨1, _⟩ => rfl)

/-- The bias added at `(b, t, u, v)` is `bias[v]`. -/
theorem bias_idx (i : S8x256x64x1024.Idx) : idx_main_v11 (idx_main_v12 i) = ix1 (i 3) :=
  funext fun a => Fin.ext (by match a with | ⟨0, _⟩ => rfl)

/-- THE REFERENCE'S RESULT is the logits of its four arguments. -/
theorem result_eq (x : (⟨S8x256x512, .f32⟩ : BufTy).Contents (Elt Ideal)) (y : (⟨S8x64x512, .f32⟩ : BufTy).Contents (Elt Ideal))
    (W : (⟨S1024x512, .f32⟩ : BufTy).Contents (Elt Ideal)) (bias : (⟨S1024, .f32⟩ : BufTy).Contents (Elt Ideal)) :
    val_main_v13 (F := Ideal) x y W bias = Joint.logits x y W bias := by
  funext i
  rw [val_main_v13_apply, val_main_v10_apply, val_main_v12_apply, val_main_v11_apply, bias_idx]
  simp only [val_main_v9_apply, val_main_v8_apply, val_main_v6_apply, val_main_v7_apply, val_main_v2_apply, val_main_v5_apply,
    val_main_v1_apply, val_main_v4_apply, val_main_v0_apply, val_main_v3_apply, val_main_cst_apply, val_main_cst_0_apply,
    val_main_call0_v0_apply, val_main_call0_cst_apply, frame_idx, label_idx, weight_idx]
  rfl

end Cert.ReferenceIdeal.Spec

end
-- ==== Proof.lean ====
/-
  A joint network's logits: a Pallas kernel against its jnp reference, equal on the extended reals.

  Both programs compute, for batch entry `b`, frame `t`, label position `u` and class `v`,

      logits[b, t, u, v] = (Σ_k max (1 · x[b, t, k] + 1 · y[b, u, k]) 0 · W[v, k]) + bias[v]        (Proof/Joint.lean).

  The reference does it with whole-array operations: two broadcasts, a sum, a rectifier, one contraction of the feature
  axis against `W`'s rows and a broadcast bias (Proof/RefValue.lean reads its run at an index). The kernel transposes
  `W` once, narrows it to bf16 — the identity on the extended reals, like the narrowing of the hidden values —, and walks
  an 8 × 8 grid: step `(bi, ti)` forms the hidden vectors of 32 frames × 64 labels of batch entry `bi`, lists the 2048
  pairs as the rows of one matrix, multiplies it by the transposed weights into a zero accumulator, adds the bias and
  writes the [32, 64, 1024] block of the result (Proof/BodyValue.lean: the step's store at an index; Proof/BlockReads.lean:
  its input blocks as entries of the arguments; Proof/Result.lean: the 64 blocks cover the result). Each entry is the same
  512 products added in the same order on both sides, so no law of the extended reals is needed and the finiteness of the
  inputs is never used. The ideal pass rewrote nothing, so the kernel is its own idealization.
-/
import proofs.«148774_j4844723109998_1_alg».proof.Defs
import proofs.«148774_j4844723109998_1_alg».proof.Proof.Gen.Kernel
import proofs.«148774_j4844723109998_1_alg».proof.Proof.Gen.Kernel.Skeleton
import proofs.«148774_j4844723109998_1_alg».proof.Proof.Gen.Kernel.Launch
import proofs.«148774_j4844723109998_1_alg».proof.Proof.Gen.Kernel.Points
import proofs.«148774_j4844723109998_1_alg».proof.Proof.Gen.Kernel.Frame
import proofs.«148774_j4844723109998_1_alg».proof.Proof.Gen.KernelIdeal
import proofs.«148774_j4844723109998_1_alg».proof.Proof.Gen.KernelIdeal.Skeleton
import proofs.«148774_j4844723109998_1_alg».proof.Proof.Gen.KernelIdeal.Launch
import proofs.«148774_j4844723109998_1_alg».proof.Proof.Gen.KernelIdeal.Points
import proofs.«148774_j4844723109998_1_alg».proof.Proof.Gen.KernelIdeal.Frame
import proofs.«148774_j4844723109998_1_alg».proof.Proof.Gen.ReferenceIdeal
import proofs.«148774_j4844723109998_1_alg».proof.Proof.Gen.Pre_finite_inputs
import proofs.«148774_j4844723109998_1_alg».proof.Proof.Gen.KernelIdeal.Value
import proofs.«148774_j4844723109998_1_alg».proof.Proof.Gen.ReferenceIdeal.Run
import proofs.«148774_j4844723109998_1_alg».proof.Proof.Gen.ReferenceIdeal.Read
import proofs.«148774_j4844723109998_1_alg».proof.Proof.Result
import proofs.«148774_j4844723109998_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading: there is nothing to preserve. -/
theorem preserves : Cert.preserves_Kernel_KernelIdeal := trivial

/-- From memories that agree on the four arguments both programs end with the logits of those arguments in their result
    arrays: the kernel's by its 64 blocks, the reference's by its run read at an index. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Spec.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
